-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x256 .f32) (main_arg6 : FVec F S64 .f32) (main_arg7 : FVec F S64x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg7
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S256x128 .f32) (main_arg3 : FVec F S256 .f32) (main_arg4 : FVec F S256x128 .f32) (main_arg5 : FVec F S64x256 .f32) (main_arg6 : FVec F S64 .f32) (main_arg7 : FVec F S64x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S640000x128 : Shape := ⟨2, ![640000, 128]⟩
abbrev S128x256 : Shape := ⟨2, ![128, 256]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S640000x256 : Shape := ⟨2, ![640000, 256]⟩
abbrev S256x64 : Shape := ⟨2, ![256, 64]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000x1, .f32⟩
  | .hbm, ⟨14, _⟩ => ⟨S_, .f32⟩
  | .hbm, ⟨15, _⟩ => ⟨S100000x1, .f32⟩
  | .hbm, ⟨16, _⟩ => ⟨S640000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S_, .f32⟩
  | .hbm, ⟨31, _⟩ => ⟨S100000x128, .f32⟩
  | .hbm, ⟨32, _⟩ => ⟨S640000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S128x256, .f32⟩
  | .hbm, ⟨37, _⟩ => ⟨S128x256, .f32⟩
  | .hbm, ⟨38, _⟩ => ⟨S1x256, .f32⟩
  | .hbm, ⟨39, _⟩ => ⟨S100000x256, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x256, .f32⟩
  | .hbm, ⟨49, _⟩ => ⟨S_, .f32⟩
  | .hbm, ⟨50, _⟩ => ⟨S100000x256, .f32⟩
  | .hbm, ⟨51, _⟩ => ⟨S640000x1, .i32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S256x64, .f32⟩
  | .hbm, ⟨56, _⟩ => ⟨S256x64, .f32⟩
  | .hbm, ⟨57, _⟩ => ⟨S1x64, .f32⟩
  | .hbm, ⟨58, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x64, .f32⟩
  | .local _ .vmem, ⟨14, _⟩ => ⟨S256x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000x1 : S_.BroadcastsInDim S640000x1 (![] : Fin 0 → Fin S640000x1.rank)
  bcast_S_S100000x1 : S_.BroadcastsInDim S100000x1 (![] : Fin 0 → Fin S100000x1.rank)
  bcast_S640000_S640000x1_0 : S640000.BroadcastsInDim S640000x1 (![0] : Fin 1 → Fin S640000x1.rank)
  bcast_S_S640000 : S_.BroadcastsInDim S640000 (![] : Fin 0 → Fin S640000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S64x256_S256x64_1_0 : S64x256.Transposes [1, 0] S256x64
  shapeCasts_S64_S1x64 : S64.ShapeCasts S1x64
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000x1_S640000x1_S640000x1_1_0_0_1_wf : ScatterDims.WF S100000x1 S640000x1 S640000x1 [1] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x256_S2000x256_1_0_0_1_n_n_wf : DotDims.WF S2000x128 S128x256 S2000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .f32 = 32 ∨ (Rect.block (s := S256x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S64x256 : Shape := ⟨2, ![64, 256]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S640000x256 : Shape := ⟨2, ![640000, 256]⟩
abbrev S256x64 : Shape := ⟨2, ![256, 64]⟩
abbrev S100000x64 : Shape := ⟨2, ![100000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S64x256, .f32⟩
  | .hbm, ⟨6, _⟩ => ⟨S64, .f32⟩
  | .hbm, ⟨7, _⟩ => ⟨S64x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000x1, .f32⟩
  | .hbm, ⟨27, _⟩ => ⟨S_, .f32⟩
  | .hbm, ⟨28, _⟩ => ⟨S100000x1, .f32⟩
  | .hbm, ⟨29, _⟩ => ⟨S640000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x256, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S128x256, .f32⟩
  | .hbm, ⟨42, _⟩ => ⟨S100000x256, .f32⟩
  | .hbm, ⟨43, _⟩ => ⟨S100000x256, .f32⟩
  | .hbm, ⟨44, _⟩ => ⟨S_, .f32⟩
  | .hbm, ⟨45, _⟩ => ⟨S100000x256, .f32⟩
  | .hbm, ⟨46, _⟩ => ⟨S100000x256, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x256, .f32⟩
  | .hbm, ⟨56, _⟩ => ⟨S_, .f32⟩
  | .hbm, ⟨57, _⟩ => ⟨S100000x256, .f32⟩
  | .hbm, ⟨58, _⟩ => ⟨S640000x1, .i32⟩
  | .hbm, ⟨59, _⟩ => ⟨S100000x256, .f32⟩
  | .hbm, ⟨60, _⟩ => ⟨S_, .f32⟩
  | .hbm, ⟨61, _⟩ => ⟨S640000x1, .f32⟩
  | .hbm, ⟨62, _⟩ => ⟨S_, .f32⟩
  | .hbm, ⟨63, _⟩ => ⟨S100000x1, .f32⟩
  | .hbm, ⟨64, _⟩ => ⟨S640000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x256, .f32⟩
  | .hbm, ⟨70, _⟩ => ⟨S100000x256, .f32⟩
  | .hbm, ⟨71, _⟩ => ⟨S256x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S256x64, .f32⟩
  | .hbm, ⟨77, _⟩ => ⟨S100000x64, .f32⟩
  | .hbm, ⟨78, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S640000x1 : S_.BroadcastsInDim S640000x1 (![] : Fin 0 → Fin S640000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x64_S100000x64_1_0_0_1_n_n_wf : DotDims.WF S100000x256 S256x64 S100000x64 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.Spec.lean ====
/-
  The two-layer mean-aggregating graph convolution, as functions of the argument arrays on the extended reals.

  For node features X [100000, d], an edge list e [2, 640000] (row 0 the sources, row 1 the destinations) the
  aggregate is the mean over a node's incoming edges of the source rows: the rows X[src] gathered (a negative source
  wrapped once by the node count), summed into their destination rows, and divided by max(in-degree, 1). A layer then
  sends row p to  (sum_k A[p,k] Wl[k,q] + sum_k X[p,k] Wr[k,q]) + b[q],  A the aggregate; the hidden layer clamps this
  below at the zero word. The gather / scatter-sum chain is carried as whole-array operations and never opened; only
  the dense layer is written index by index.
-/
import proofs.«103036_j6373731468068_1_alg».proof.KernelIdeal
import Idealize.ShloMosaic.PureOps.Ideal
import Idealize.ShloMosaic.Lib.ValueIdx

noncomputable section

open scoped BigOperators

namespace Cert.Sage

open Idealize.ShloMosaic Idealize.ShloMosaic.ValueIdx Cert.KernelIdeal

/-- Arrays of 32-bit integers and of reals-with-infinities over a shape. -/
abbrev I32 (S : Shape) := (⟨S, .i32⟩ : BufTy).Contents (Elt Ideal)
abbrev F32 (S : Shape) := (⟨S, .f32⟩ : BufTy).Contents (Elt Ideal)

/-- One dense row-by-column entry of a layer: the aggregate's row against the left weights, the features' row
    against the right weights, and the bias entry, added in that order. -/
def lin {R K N : Nat} (A X : (⟨2, ![R, K]⟩ : Shape).Idx → EReal) (Wl Wr : (⟨2, ![K, N]⟩ : Shape).Idx → EReal)
    (b : (⟨2, ![1, N]⟩ : Shape).Idx → EReal) (p : Fin R) (q : Fin N) : EReal :=
  (∑ k : Fin K, A (ix2 p k) * Wl (ix2 k q) + ∑ k : Fin K, X (ix2 p k) * Wr (ix2 k q)) + b (ix2 (0 : Fin 1) q)

/-- The hidden layer [100000, 256]: the dense entry clamped below at the zero word. -/
def hidden (A X : F32 S100000x128) (Wl Wr : F32 S128x256) (b : F32 S1x256) : F32 S100000x256 :=
  fun i => max (lin (R := 100000) (K := 128) (N := 256) A X Wl Wr b (i 0) (i 1)) (Ideal.ofBits .f32 0x00000000#32)

/-- The output layer [100000, 64]: the dense entry. -/
def outp (A H : F32 S100000x256) (Wl Wr : F32 S256x64) (b : F32 S1x64) : F32 S100000x64 :=
  fun i => lin (R := 100000) (K := 256) (N := 64) A H Wl Wr b (i 0) (i 1)

variable [Cert.KernelIdeal.Facts]
open Cert.KernelIdeal.Facts₀ Cert.KernelIdeal.Facts

/-- The source row of the edge list, as a vector. -/
def srcRow (e : I32 S2x640000) : I32 S640000 :=
  shapeCast _ (extractStridedSlice S1x640000 ![0, 0] e slices_S2x640000_S1x640000_0_0) shapeCasts_S1x640000_S640000

/-- The destinations as an index column. -/
def dstCol (e : I32 S2x640000) : I32 S640000x1 :=
  broadcastInDim S640000x1 ![0] bcast_S640000_S640000x1_0
    (shapeCast _ (extractStridedSlice S1x640000 ![1, 0] e slices_S2x640000_S1x640000_1_0) shapeCasts_S1x640000_S640000)

/-- The sources as an index column, a negative source wrapped once by the node count. -/
def srcCol (e : I32 S2x640000) : I32 S640000x1 :=
  broadcastInDim S640000x1 ![0] bcast_S640000_S640000x1_0
    (select (cmpi .slt (srcRow e) (broadcastInDim S640000 ![] bcast_S_S640000 (constantI S_ 32 0#32)))
      (addi (srcRow e) (broadcastInDim S640000 ![] bcast_S_S640000 (constantI S_ 32 100000#32))) (srcRow e))

/-- max(in-degree, 1) as a column. -/
def cnt (e : I32 S2x640000) : F32 S100000x1 :=
  maximumf (F := Ideal)
    (Host.scatterAdd (F := Ideal) scatter_S100000x1_S640000x1_S640000x1_1_0_0_1
      (broadcastInDim S100000x1 ![] bcast_S_S100000x1 (constant (F := Ideal) S_ .f32 0x00000000#32)) (dstCol e)
      (broadcastInDim S640000x1 ![] bcast_S_S640000x1 (constant (F := Ideal) S_ .f32 0x3F800000#32)))
    (broadcastInDim S100000x1 ![] bcast_S_S100000x1 (constant (F := Ideal) S_ .f32 0x3F800000#32))

/-- The mean aggregate of 128-wide rows. -/
def mean128 (X : F32 S100000x128) (e : I32 S2x640000) : F32 S100000x128 :=
  Host.divf (F := Ideal)
    (Host.scatterAdd (F := Ideal) scatter_S100000x128_S640000x1_S640000x128_1_0_0_1
      (broadcastInDim S100000x128 ![] bcast_S_S100000x128 (constant (F := Ideal) S_ .f32 0x00000000#32)) (dstCol e)
      (Host.gather gather_S100000x128_S640000x1_S640000x128_1_0_n_n_0_1_1128 X (srcCol e)))
    (broadcastInDim S100000x128 ![0, 1] bcast_S100000x1_S100000x128_0_1 (cnt e))

/-- The mean aggregate of 256-wide rows. -/
def mean256 (H : F32 S100000x256) (e : I32 S2x640000) : F32 S100000x256 :=
  Host.divf (F := Ideal)
    (Host.scatterAdd (F := Ideal) scatter_S100000x256_S640000x1_S640000x256_1_0_0_1
      (broadcastInDim S100000x256 ![] bcast_S_S100000x256 (constant (F := Ideal) S_ .f32 0x00000000#32)) (dstCol e)
      (Host.gather gather_S100000x256_S640000x1_S640000x256_1_0_n_n_0_1_1256 H (srcCol e)))
    (broadcastInDim S100000x256 ![0, 1] bcast_S100000x1_S100000x256_0_1 (cnt e))

/-- The hidden features of the whole network's first layer. -/
def hid (x : F32 S100000x128) (e : I32 S2x640000) (w1l : F32 S256x128) (b1 : F32 S256) (w1r : F32 S256x128) : F32 S100000x256 :=
  hidden (mean128 x e) x (transpose S128x256 [1, 0] w1l transposes_S256x128_S128x256_1_0)
    (transpose S128x256 [1, 0] w1r transposes_S256x128_S128x256_1_0) (shapeCast S1x256 b1 shapeCasts_S256_S1x256)

/-- The network's result. -/
def out (x : F32 S100000x128) (e : I32 S2x640000) (w1l : F32 S256x128) (b1 : F32 S256) (w1r : F32 S256x128)
    (w2l : F32 S64x256) (b2 : F32 S64) (w2r : F32 S64x256) : F32 S100000x64 :=
  outp (mean256 (hid x e w1l b1 w1r) e) (hid x e w1l b1 w1r) (transpose S256x64 [1, 0] w2l transposes_S64x256_S256x64_1_0)
    (transpose S256x64 [1, 0] w2r transposes_S64x256_S256x64_1_0) (shapeCast S1x64 b2 shapeCasts_S64_S1x64)

end Cert.Sage

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Region0.lean ====
import proofs.«103036_j6373731468068_1_alg».proof.Proof.Gen.KernelIdeal.Frame
import proofs.«103036_j6373731468068_1_alg».proof.Proof.Spec
import proofs.«103036_j6373731468068_1_alg».proof.Proof.LibPlainDot
import proofs.«103036_j6373731468068_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed dimension numbers of the layer's two products are those of a plain 2000×128 by 128×256 product. -/
theorem dot_plain : dot_S2000x128_S128x256_S2000x256_1_0_0_1_n_n = DotDims.plain 2000 128 256 := rfl

/-- The body's stored value at row p, column q of its block: the dense entry of the loaded blocks, clamped below at the
    zero word. -/
theorem pay_apply (x0 x1 : FVec Ideal S2000x128 .f32) (x2 x3 : FVec Ideal S128x256 .f32) (x4 : FVec Ideal S1x256 .f32)
    (p : Fin 2000) (q : Fin 256) :
    k0_pay1 (F := Ideal) x0 x1 x2 x3 x4 (ix2 p q)
      = max (Cert.Sage.lin (R := 2000) (K := 128) (N := 256) x0 x1 x2 x3 x4 p q) (Ideal.ofBits .f32 0x00000000#32) := by
  unfold k0_pay1
  simp only [shapeCast_self]
  rw [dot_plain]
  show max ((FloatOps.matmul (DotDims.plain 2000 128 256) none _ _ (constant (F := Ideal) S2000x256 .f32 0x00000000#32) (ix2 p q)
      + FloatOps.matmul (DotDims.plain 2000 128 256) none _ _ (constant (F := Ideal) S2000x256 .f32 0x00000000#32) (ix2 p q))
      + broadcastTo S2000x256 x4 broadcasts_S1x256_S2000x256 (ix2 p q)) _ = _
  rw [Cert.PlainDot.matmul_zero_apply, Cert.PlainDot.matmul_zero_apply, Cert.RowBias.rows_apply]
  rfl

/-- A dense entry depends only on the two rows, the two columns and the bias entry it reads. -/
theorem lin_congr {R R' K N : Nat} (A X : (⟨2, ![R, K]⟩ : Shape).Idx → EReal) (A' X' : (⟨2, ![R', K]⟩ : Shape).Idx → EReal)
    (Wl Wr Wl' Wr' : (⟨2, ![K, N]⟩ : Shape).Idx → EReal) (b b' : (⟨2, ![1, N]⟩ : Shape).Idx → EReal)
    (p : Fin R) (p' : Fin R') (q q' : Fin N)
    (hA : ∀ k : Fin K, A (ix2 p k) = A' (ix2 p' k)) (hX : ∀ k : Fin K, X (ix2 p k) = X' (ix2 p' k))
    (hWl : ∀ k : Fin K, Wl (ix2 k q) = Wl' (ix2 k q')) (hWr : ∀ k : Fin K, Wr (ix2 k q) = Wr' (ix2 k q'))
    (hb : b (ix2 (0 : Fin 1) q) = b' (ix2 (0 : Fin 1) q')) :
    Cert.Sage.lin A X Wl Wr b p q = Cert.Sage.lin A' X' Wl' Wr' b' p' q' := by
  unfold Cert.Sage.lin
  rw [hb, Finset.sum_congr rfl fun k _ => congrArg₂ (· * ·) (hA k) (hWl k),
    Finset.sum_congr rfl fun k _ => congrArg₂ (· * ·) (hX k) (hWr k)]

theorem hz : (![0, 0] : Fin 2 → Nat) = fun _ => 0 := funext fun a => by fin_cases a <;> rfl

/-- The printed index maps, decided over the 50 points: the two row-blocked inputs move with the result's row block, the
    weights and the bias are whole, and the result's blocks stay inside the array. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 49 :=
  (by decide +kernel : ∀ t : Fin grid0.N, _)

/-- Every row block of the result is some point's. -/
theorem idx_onto : ∀ r : Fin 50, ∃ t : Fin cfg0.N, win0_5.index t = ![r.val, 0] :=
  (by decide +kernel : ∀ r : Fin 50, ∃ t : Fin grid0.N, win0_5.index t = ![r.val, 0])

/-- WHAT POINT t WRITES BACK is block t of the hidden layer of the arrays the call was entered with. -/
theorem flushed_eq (c : Dev nD) (t : Fin cfg0.N) :
    (dat0 (F := Ideal) V c).flushed 5 t = ((cfg0.win 5).blk t).view.read (Elt Ideal)
      (Cert.Sage.hidden (V c main_v21) (V c main_arg0) (V c main_v22) (V c main_v23) (V c main_v24)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  obtain ⟨e00, e01, e10, e11, e20, e21, e30, e31, e40, e41, e51, e50⟩ := idx_facts t
  funext j
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Sage.hidden (V c main_v21) (V c main_arg0) (V c main_v22) (V c main_v23) (V c main_v24)
        (((cfg0.win 5).blk t).view.emb (ix2 p q))
  refine (pay_apply (iblk0 V c 0 t) (iblk0 V c 1 t) (iblk0 V c 2 t) (iblk0 V c 3 t) (iblk0 V c 4 t) p q).trans ?_
  refine congrArg (fun z => max z (Ideal.ofBits .f32 0x00000000#32)) ?_
  refine lin_congr (iblk0 V c 0 t) (iblk0 V c 1 t) (V c main_v21) (V c main_arg0) (iblk0 V c 2 t) (iblk0 V c 3 t)
    (V c main_v22) (V c main_v23) (iblk0 V c 4 t) (V c main_v24) p _ q _
    (fun k => ?_) (fun k => ?_) (fun k => ?_) (fun k => ?_) ?_
  · show V c main_v21 (((cfg0.win 0).blk t).view.emb (ix2 p k)) = V c main_v21 _
    refine congrArg (V c main_v21) (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * k.val = k.val; omega
  · show V c main_arg0 (((cfg0.win 1).blk t).view.emb (ix2 p k)) = V c main_arg0 _
    refine congrArg (V c main_arg0) (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 128 + 1 * k.val = k.val; omega
  · show V c main_v22 (((cfg0.win 2).blk t).view.emb (ix2 k q)) = V c main_v22 _
    refine congrArg (V c main_v22) (funext fun a => Fin.ext ?_)
    match a with
    | ⟨0, _⟩ => show win0_2.index t (0 : Fin 2) * 128 + 1 * k.val = k.val; omega
    | ⟨1, _⟩ => show win0_2.index t (1 : Fin 2) * 256 + 1 * q.val = win0_5.index t (1 : Fin 2) * 256 + 1 * q.val; omega
  · show V c main_v23 (((cfg0.win 3).blk t).view.emb (ix2 k q)) = V c main_v23 _
    refine congrArg (V c main_v23) (funext fun a => Fin.ext ?_)
    match a with
    | ⟨0, _⟩ => show win0_3.index t (0 : Fin 2) * 128 + 1 * k.val = k.val; omega
    | ⟨1, _⟩ => show win0_3.index t (1 : Fin 2) * 256 + 1 * q.val = win0_5.index t (1 : Fin 2) * 256 + 1 * q.val; omega
  · show V c main_v24 (((cfg0.win 4).blk t).view.emb (ix2 (0 : Fin 1) q)) = V c main_v24 _
    refine congrArg (V c main_v24) (funext fun a => Fin.ext ?_)
    match a with
    | ⟨0, _⟩ => show win0_4.index t (0 : Fin 2) * 1 + 1 * 0 = 0; omega
    | ⟨1, _⟩ => show win0_4.index t (1 : Fin 2) * 256 + 1 * q.val = win0_5.index t (1 : Fin 2) * 256 + 1 * q.val; omega

/-- An index of the result array is in point t's block iff each coordinate is in the block's range on its axis. -/
theorem mem_blk (t : Fin cfg0.N) (i : S100000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v25).slice (win0_5.rect t)).set ↔ _
  rw [View.set_slice_whole, Rect.mem_set_unit]
  exact Iff.rfl

/-- Every index of the result array lies in the block of the point whose row block holds its row: row r is in row
    block r / 2000. -/
theorem cover (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- After the first kernel call's 50 grid points its result array [100000, 256] is the hidden layer of the arrays the call
    was entered with. -/
theorem final (c : Dev nD) :
    (dat0 (F := Ideal) V c).arrAt 5 cfg0.N
      = Cert.Sage.hidden (V c main_v21) (V c main_arg0) (V c main_v22) (V c main_v23) (V c main_v24) := by
  exact (dat0 (F := Ideal) V c).arrAt_eq_of_cover 5
    (Cert.Sage.hidden (V c main_v21) (V c main_arg0) (V c main_v22) (V c main_v23) (V c main_v24))
    (fun t _ => flushed_eq V c t) cover

end Cert.KernelIdeal.Region0

end
-- ==== Proof.Region1.lean ====
import proofs.«103036_j6373731468068_1_alg».proof.Proof.Gen.KernelIdeal.Frame
import proofs.«103036_j6373731468068_1_alg».proof.Proof.Spec
import proofs.«103036_j6373731468068_1_alg».proof.Proof.LibPlainDot
import proofs.«103036_j6373731468068_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed contraction record is the plain M×K by K×N one. -/
theorem dot_plain : dot_S2000x256_S256x64_S2000x64_1_0_0_1_n_n = DotDims.plain 2000 256 64 := rfl

/-- The body's stored value at (p, q): the dense entry of the five blocks. -/
theorem pay_apply (x0 x1 : FVec Ideal S2000x256 .f32) (x2 x3 : FVec Ideal S256x64 .f32) (x4 : FVec Ideal S1x64 .f32)
    (p : Fin 2000) (q : Fin 64) :
    k1_pay1 (F := Ideal) x0 x1 x2 x3 x4 (ix2 p q) = Cert.Sage.lin (R := 2000) (K := 256) (N := 64) x0 x1 x2 x3 x4 p q := by
  unfold k1_pay1 Cert.Sage.lin
  simp only [shapeCast_self]
  rw [addf_apply, addf_apply, dot_plain]
  refine congrArg₂ (· + ·) (congrArg₂ (· + ·) ?_ ?_) ?_
  · exact Cert.PlainDot.matmul_zero_apply none (truncf FTy.bf16 x0 bitsLt_bf16_f32) (truncf FTy.bf16 x2 bitsLt_bf16_f32) p q
  · exact Cert.PlainDot.matmul_zero_apply none (truncf FTy.bf16 x1 bitsLt_bf16_f32) (truncf FTy.bf16 x3 bitsLt_bf16_f32) p q
  · exact Cert.RowBias.rows_apply x4 broadcasts_S1x64_S2000x64 p q

theorem zero_off : (![0, 0] : Fin 2 → Nat) = fun _ => 0 := funext fun a => by fin_cases a <;> rfl

/-- The printed index maps over the 50 points: the two row-blocked inputs and the result sit at block row t, column
    block 0; the weights and the bias are whole (block 0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem N_eq : cfg1.N = 50 := by decide +kernel

/-- The aggregate's block at point t holds rows 2000·t … 2000·t + 1999 of the aggregate array. -/
theorem blk0_apply (c : Dev nD) (t : Fin cfg1.N) (p : Fin 2000) (k : Fin 256) (r : Fin 100000) (hr : r.val = t.val * 2000 + p.val) :
    iblk1 (F := Ideal) V c 0 t (ix2 p k) = V c main_v37 (ix2 r k) := by
  obtain ⟨e00, e01, -⟩ := idx_facts t
  unfold iblk1
  rw [View.read_apply]
  show V c main_v37 _ = V c main_v37 _
  congr 1
  funext a
  apply Fin.ext
  match a with
  | ⟨0, _⟩ => show win1_0.index t (0 : Fin 2) * 2000 + 1 * p.val = r.val; rw [e00, hr]; omega
  | ⟨1, _⟩ => show win1_0.index t (1 : Fin 2) * 256 + 1 * k.val = k.val; rw [e01]; omega

/-- The hidden features' block at point t holds the same rows of the hidden array. -/
theorem blk1_apply (c : Dev nD) (t : Fin cfg1.N) (p : Fin 2000) (k : Fin 256) (r : Fin 100000) (hr : r.val = t.val * 2000 + p.val) :
    iblk1 (F := Ideal) V c 1 t (ix2 p k) = V c main_v25 (ix2 r k) := by
  obtain ⟨-, -, e10, e11, -⟩ := idx_facts t
  unfold iblk1
  rw [View.read_apply]
  show V c main_v25 _ = V c main_v25 _
  congr 1
  funext a
  apply Fin.ext
  match a with
  | ⟨0, _⟩ => show win1_1.index t (0 : Fin 2) * 2000 + 1 * p.val = r.val; rw [e10, hr]; omega
  | ⟨1, _⟩ => show win1_1.index t (1 : Fin 2) * 256 + 1 * k.val = k.val; rw [e11]; omega

/-- The left weights' block is the whole array at every point. -/
theorem blk2_apply (c : Dev nD) (t : Fin cfg1.N) (k : Fin 256) (q : Fin 64) :
    iblk1 (F := Ideal) V c 2 t (ix2 k q) = V c main_v38 (ix2 k q) := by
  obtain ⟨-, -, -, -, e20, e21, -⟩ := idx_facts t
  unfold iblk1
  rw [View.read_apply]
  show V c main_v38 _ = V c main_v38 _
  congr 1
  funext a
  apply Fin.ext
  match a with
  | ⟨0, _⟩ => show win1_2.index t (0 : Fin 2) * 256 + 1 * k.val = k.val; rw [e20]; omega
  | ⟨1, _⟩ => show win1_2.index t (1 : Fin 2) * 64 + 1 * q.val = q.val; rw [e21]; omega

/-- The right weights' block is the whole array at every point. -/
theorem blk3_apply (c : Dev nD) (t : Fin cfg1.N) (k : Fin 256) (q : Fin 64) :
    iblk1 (F := Ideal) V c 3 t (ix2 k q) = V c main_v39 (ix2 k q) := by
  obtain ⟨-, -, -, -, -, -, e30, e31, -⟩ := idx_facts t
  unfold iblk1
  rw [View.read_apply]
  show V c main_v39 _ = V c main_v39 _
  congr 1
  funext a
  apply Fin.ext
  match a with
  | ⟨0, _⟩ => show win1_3.index t (0 : Fin 2) * 256 + 1 * k.val = k.val; rw [e30]; omega
  | ⟨1, _⟩ => show win1_3.index t (1 : Fin 2) * 64 + 1 * q.val = q.val; rw [e31]; omega

/-- The bias row's block is the whole row at every point. -/
theorem blk4_apply (c : Dev nD) (t : Fin cfg1.N) (z : Fin 1) (q : Fin 64) :
    iblk1 (F := Ideal) V c 4 t (ix2 z q) = V c main_v40 (ix2 z q) := by
  obtain ⟨-, -, -, -, -, -, -, -, e40, e41, -⟩ := idx_facts t
  unfold iblk1
  rw [View.read_apply]
  show V c main_v40 _ = V c main_v40 _
  congr 1
  funext a
  apply Fin.ext
  match a with
  | ⟨0, _⟩ => show win1_4.index t (0 : Fin 2) * 1 + 1 * z.val = z.val; rw [e40]; omega
  | ⟨1, _⟩ => show win1_4.index t (1 : Fin 2) * 64 + 1 * q.val = q.val; rw [e41]; omega

/-- The dense entry of the five blocks at point t, row p, is the dense entry of the arrays at row 2000·t + p. -/
theorem lin_blocks (c : Dev nD) (t : Fin cfg1.N) (p : Fin 2000) (q : Fin 64) (r : Fin 100000) (hr : r.val = t.val * 2000 + p.val) :
    Cert.Sage.lin (R := 2000) (K := 256) (N := 64) (iblk1 (F := Ideal) V c 0 t) (iblk1 (F := Ideal) V c 1 t) (iblk1 (F := Ideal) V c 2 t)
        (iblk1 (F := Ideal) V c 3 t) (iblk1 (F := Ideal) V c 4 t) p q
      = Cert.Sage.lin (R := 100000) (K := 256) (N := 64) (V c main_v37) (V c main_v25) (V c main_v38) (V c main_v39) (V c main_v40) r q := by
  unfold Cert.Sage.lin
  refine congrArg₂ (· + ·) (congrArg₂ (· + ·) ?_ ?_) ?_
  · exact Finset.sum_congr rfl fun k _ => congrArg₂ (· * ·) (blk0_apply V c t p k r hr) (blk2_apply V c t k q)
  · exact Finset.sum_congr rfl fun k _ => congrArg₂ (· * ·) (blk1_apply V c t p k r hr) (blk3_apply V c t k q)
  · exact blk4_apply V c t 0 q

/-- The output layer at an index whose coordinates are r and q is the dense entry at (r, q). -/
theorem outp_apply_of (A H : Cert.Sage.F32 S100000x256) (Wl Wr : Cert.Sage.F32 S256x64) (b : Cert.Sage.F32 S1x64)
    (i : S100000x64.Idx) (r : Fin 100000) (q : Fin 64) (h0 : (i 0).val = r.val) (h1 : (i 1).val = q.val) :
    Cert.Sage.outp A H Wl Wr b i = Cert.Sage.lin (R := 100000) (K := 256) (N := 64) A H Wl Wr b r q := by
  obtain ⟨r', q', rfl⟩ : ∃ (r' : Fin 100000) (q' : Fin 64), i = ix2 r' q' := ⟨i 0, i 1, eq_ix2 i⟩
  obtain rfl : r' = r := Fin.ext h0
  obtain rfl : q' = q := Fin.ext h1
  rfl

/-- What point t writes back is block t of the output layer of the arrays the call was entered with. -/
theorem flushed_eq (c : Dev nD) (t : Fin cfg1.N) :
    (dat1 (F := Ideal) V c).flushed 5 t = ((cfg1.win 5).blk t).view.read (Elt Ideal)
      (Cert.Sage.outp (V c main_v37) (V c main_v25) (V c main_v38) (V c main_v39) (V c main_v40)) := by
  show (cfg1.win 5).cut (grid1.coords t) ((dat1 (F := Ideal) V c).after 5 t) = _
  rw [after1_5]
  unfold out1_5
  rw [View.canon_unit_zero zero_off]
  simp only [View.ld_unit_zero (S := S2000x256) zero_off, View.ld_unit_zero (S := S256x64) zero_off, View.ld_unit_zero (S := S1x64) zero_off]
  obtain ⟨-, -, -, -, -, -, -, -, -, -, e50, e51⟩ := idx_facts t
  have ht : t.val < 50 := lt_of_lt_of_eq t.isLt N_eq
  funext j
  obtain ⟨p, q, rfl⟩ : ∃ (p : Fin 2000) (q : Fin 64), j = ix2 p q := ⟨j 0, j 1, eq_ix2 j⟩
  refine (pay_apply _ _ _ _ _ p q).trans ?_
  refine (lin_blocks V c t p q ⟨t.val * 2000 + p.val, by have := p.isLt; omega⟩ rfl).trans ?_
  show _ = Cert.Sage.outp (V c main_v37) (V c main_v25) (V c main_v38) (V c main_v39) (V c main_v40) (((cfg1.win 5).blk t).view.emb (ix2 p q))
  refine (outp_apply_of _ _ _ _ _ (((cfg1.win 5).blk t).view.emb (ix2 p q)) ⟨t.val * 2000 + p.val, by have := p.isLt; omega⟩ q ?_ ?_).symm
  · show win1_5.index t (0 : Fin 2) * 2000 + 1 * p.val = t.val * 2000 + p.val
    rw [e50]; omega
  · show win1_5.index t (1 : Fin 2) * 64 + 1 * q.val = q.val
    rw [e51]; omega

/-- An index of the result array is in point t's block iff each coordinate is in the block's range on its axis. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v41).slice (win1_5.rect t)).set ↔ _
  rw [View.set_slice_whole, Rect.mem_set_unit]
  exact Iff.rfl

/-- Every index of the result array is in the block of the point its row divided by 2000 names. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 2000 < cfg1.N := by rw [N_eq]; omega
  obtain ⟨-, -, -, -, -, -, -, -, -, -, e50, e51⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, ht⟩ (1 : Fin 2) * 64 ≤ (i 1).val ∧ (i 1).val < win1_5.index ⟨(i 0).val / 2000, ht⟩ (1 : Fin 2) * 64 + 64
    rw [e51]
    omega

/-- After the second kernel call's 50 grid points its result array [100000, 64] is the output layer of the arrays the call
    was entered with. -/
theorem final (c : Dev nD) :
    (dat1 (F := Ideal) V c).arrAt 5 cfg1.N
      = Cert.Sage.outp (V c main_v37) (V c main_v25) (V c main_v38) (V c main_v39) (V c main_v40) :=
  (dat1 (F := Ideal) V c).arrAt_eq_of_cover 5
    (Cert.Sage.outp (V c main_v37) (V c main_v25) (V c main_v38) (V c main_v39) (V c main_v40))
    (fun t _ => flushed_eq V c t) cover

end Cert.KernelIdeal.Region1

end
-- ==== Proof.KernelValue.lean ====
/-
  What the two-call program leaves in its result array, read through the run's boundaries.

  The run passes five boundaries: the launch memory; after the first stretch of host operations (the edge list cut into
  its source and destination rows, the in-degree column, the 128-wide mean aggregate of the features, the two weight
  matrices transposed, the bias as a row); after the first call (its result array the hidden layer of those);
  after the second stretch (the 256-wide mean aggregate of the hidden layer over the same edge list and in-degrees, the
  second layer's weights transposed, its bias as a row); after the second call (its result array the output layer).
  Each boundary's contents at the buffers the next step reads are named here as the network's functions of the
  argument arrays; the gather / scatter-sum chain is never opened.
-/
import proofs.«103036_j6373731468068_1_alg».proof.Proof.Gen.KernelIdeal.Frame
import proofs.«103036_j6373731468068_1_alg».proof.Proof.Spec
import proofs.«103036_j6373731468068_1_alg».proof.Proof.Region0
import proofs.«103036_j6373731468068_1_alg».proof.Proof.Region1
import Idealize.ShloMosaic.Lib.StableHlo.Run

noncomputable section

namespace Cert.KernelIdeal.Named

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Entering the first call -/

set_option maxHeartbeats 4000000 in
/-- The first call's aggregate operand is the 128-wide mean aggregate of the features. -/
theorem V1_v21 (c : Dev nD) : V1 m ρ c main_v21
    = Cert.Sage.mean128 (m ((c.tc : Thread nD τ).loc main_arg0)) (m ((c.tc : Thread nD τ).loc main_arg1)) := by
  show StableHlo.after hostOps0 (W0 m ρ c) (Proc.devRef .tc main_v21) = _
  after_results_simp <;> rfl

/-- Its feature operand is the features as launched. -/
theorem V1_arg0 (c : Dev nD) : V1 m ρ c main_arg0 = m ((c.tc : Thread nD τ).loc main_arg0) := by
  show StableHlo.after hostOps0 (W0 m ρ c) (Proc.devRef .tc main_arg0) = _
  after_results

/-- Its weights are the stored matrices transposed. -/
theorem V1_v22 (c : Dev nD) : V1 m ρ c main_v22
    = transpose S128x256 [1, 0] (m ((c.tc : Thread nD τ).loc main_arg2)) transposes_S256x128_S128x256_1_0 := by
  show StableHlo.after hostOps0 (W0 m ρ c) (Proc.devRef .tc main_v22) = _
  after_results

theorem V1_v23 (c : Dev nD) : V1 m ρ c main_v23
    = transpose S128x256 [1, 0] (m ((c.tc : Thread nD τ).loc main_arg4)) transposes_S256x128_S128x256_1_0 := by
  show StableHlo.after hostOps0 (W0 m ρ c) (Proc.devRef .tc main_v23) = _
  after_results

/-- Its bias is the bias vector as one row. -/
theorem V1_v24 (c : Dev nD) : V1 m ρ c main_v24
    = shapeCast S1x256 (m ((c.tc : Thread nD τ).loc main_arg3)) shapeCasts_S256_S1x256 := by
  show StableHlo.after hostOps0 (W0 m ρ c) (Proc.devRef .tc main_v24) = _
  after_results
  rfl

/-! ## Leaving the first call -/

/-- The first call's result array is the network's hidden features. -/
theorem W2_v25 (c : Dev nD) : W2 m ρ c (Proc.devRef .tc main_v25)
    = Cert.Sage.hid (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W2_arr m ρ c 5).trans ((Cert.KernelIdeal.Region0.final (V1 m ρ) c).trans ?_)
  rw [V1_v21, V1_arg0, V1_v22, V1_v23, V1_v24]
  rfl

/-- The call leaves the first stretch's other buffers alone: the source row, -/
theorem W2_v1 (c : Dev nD) : W2 m ρ c (Proc.devRef .tc main_v1) = Cert.Sage.srcRow (m ((c.tc : Thread nD τ).loc main_arg1)) := by
  refine (W2_of_ne m ρ c main_v1 (by decide)).trans ?_
  show StableHlo.after hostOps0 (W0 m ρ c) (Proc.devRef .tc main_v1) = _
  after_results
  rfl

/-- the destination row, -/
theorem W2_v3 (c : Dev nD) : W2 m ρ c (Proc.devRef .tc main_v3)
    = shapeCast _ (extractStridedSlice S1x640000 ![1, 0] (m ((c.tc : Thread nD τ).loc main_arg1)) slices_S2x640000_S1x640000_1_0) shapeCasts_S1x640000_S640000 := by
  refine (W2_of_ne m ρ c main_v3 (by decide)).trans ?_
  show StableHlo.after hostOps0 (W0 m ρ c) (Proc.devRef .tc main_v3) = _
  after_results
  rfl

/-- the clamped in-degree column, -/
theorem W2_v9 (c : Dev nD) : W2 m ρ c (Proc.devRef .tc main_v9) = Cert.Sage.cnt (m ((c.tc : Thread nD τ).loc main_arg1)) := by
  refine (W2_of_ne m ρ c main_v9 (by decide)).trans ?_
  show StableHlo.after hostOps0 (W0 m ρ c) (Proc.devRef .tc main_v9) = _
  after_results
  rfl

/-- and the second layer's arguments. -/
theorem W2_arg5 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results

theorem W2_arg6 (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results

theorem W2_arg7 (c : Dev nD) : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results

/-! ## Entering the second call -/

set_option maxHeartbeats 4000000 in
/-- The second call's aggregate operand is the 256-wide mean aggregate of the first call's result. -/
theorem V3_v37 (c : Dev nD) : V3 m ρ c main_v37
    = Cert.Sage.mean256 (W2 m ρ c (Proc.devRef .tc main_v25)) (m ((c.tc : Thread nD τ).loc main_arg1)) := by
  show StableHlo.after hostOps1 (W2 m ρ c) (Proc.devRef .tc main_v37) = _
  after_results
  rw [W2_v1, W2_v3, W2_v9]
  rfl

/-- Its feature operand is the first call's result. -/
theorem V3_v25 (c : Dev nD) : V3 m ρ c main_v25 = W2 m ρ c (Proc.devRef .tc main_v25) := by
  show StableHlo.after hostOps1 (W2 m ρ c) (Proc.devRef .tc main_v25) = _
  after_results

theorem V3_v38 (c : Dev nD) : V3 m ρ c main_v38
    = transpose S256x64 [1, 0] (m ((c.tc : Thread nD τ).loc main_arg5)) transposes_S64x256_S256x64_1_0 := by
  show StableHlo.after hostOps1 (W2 m ρ c) (Proc.devRef .tc main_v38) = _
  after_results
  rw [W2_arg5]

theorem V3_v39 (c : Dev nD) : V3 m ρ c main_v39
    = transpose S256x64 [1, 0] (m ((c.tc : Thread nD τ).loc main_arg7)) transposes_S64x256_S256x64_1_0 := by
  show StableHlo.after hostOps1 (W2 m ρ c) (Proc.devRef .tc main_v39) = _
  after_results
  rw [W2_arg7]

theorem V3_v40 (c : Dev nD) : V3 m ρ c main_v40
    = shapeCast S1x64 (m ((c.tc : Thread nD τ).loc main_arg6)) shapeCasts_S64_S1x64 := by
  show StableHlo.after hostOps1 (W2 m ρ c) (Proc.devRef .tc main_v40) = _
  after_results
  rw [W2_arg6]
  rfl

/-! ## The result -/

/-- After the run the result array holds the network's result of the argument arrays as launched. -/
theorem value (c : Dev nD) : W4 m ρ c (Proc.devRef .tc main_v41)
    = Cert.Sage.out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  refine (W4_arr m ρ c 5).trans ((Cert.KernelIdeal.Region1.final (V3 m ρ) c).trans ?_)
  rw [V3_v37, V3_v25, V3_v38, V3_v39, V3_v40, W2_v25]
  rfl

end Cert.KernelIdeal.Named

end
-- ==== Proof.RefValue.lean ====
import proofs.«103036_j6373731468068_1_alg».proof.Proof.Gen.ReferenceIdeal.Run
import proofs.«103036_j6373731468068_1_alg».proof.Proof.Gen.ReferenceIdeal.Read
import proofs.«103036_j6373731468068_1_alg».proof.Proof.Gen.KernelIdeal
import proofs.«103036_j6373731468068_1_alg».proof.Proof.Spec
import proofs.«103036_j6373731468068_1_alg».proof.Proof.LibPlainDot
import proofs.«103036_j6373731468068_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem

/-- The first layer's contraction record is the plain 100000×128 by 128×256 product. -/
theorem dot1_plain : dot_S100000x128_S128x256_S100000x256_1_0_0_1_n_n = DotDims.plain 100000 128 256 := rfl

/-- The second layer's contraction record is the plain 100000×256 by 256×64 product. -/
theorem dot2_plain : dot_S100000x256_S256x64_S100000x64_1_0_0_1_n_n = DotDims.plain 100000 256 64 := rfl

/-- The hidden layer as the reference writes it — (A·Wl + bias) + X·Wr clamped below at zero — is the dense entry
    (A·Wl + X·Wr) + bias clamped below at zero: addition is commutative and associative. -/
theorem layer1 (A X : FVec Ideal S100000x128 .f32) (Wl Wr : FVec Ideal S128x256 .f32) (b : FVec Ideal S256 .f32)
    (h : Cert.KernelIdeal.S256.ShapeCasts Cert.KernelIdeal.S1x256) :
    maximumf (F := Ideal)
        (addf (addf (Host.dotGeneral (F := Ideal) dot_S100000x128_S128x256_S100000x256_1_0_0_1_n_n none A Wl)
            (broadcastInDim S100000x256 ![0, 1] bcast_S1x256_S100000x256_0_1 (broadcastInDim S1x256 ![1] bcast_S256_S1x256_1 b)))
          (Host.dotGeneral (F := Ideal) dot_S100000x128_S128x256_S100000x256_1_0_0_1_n_n none X Wr))
        (broadcastInDim S100000x256 ![] bcast_S_S100000x256 (constant (F := Ideal) S_ .f32 0x00000000#32))
      = Cert.Sage.hidden A X Wl Wr (shapeCast Cert.KernelIdeal.S1x256 b h) := by
  funext i
  obtain ⟨p, q, rfl⟩ : ∃ (p : Fin 100000) (q : Fin 256), i = ix2 p q := ⟨i 0, i 1, eq_ix2 i⟩
  rw [maximumf_apply, addf_apply, addf_apply, dot1_plain]
  simp only [Host.dotGeneral]
  rw [Cert.PlainDot.dotGeneral_apply, Cert.PlainDot.dotGeneral_apply, Cert.RowBias.hostRows_apply, Cert.RowBias.splat_apply]
  show max _ _ = max (Cert.Sage.lin (R := 100000) (K := 128) (N := 256) A X Wl Wr _ p q) _
  unfold Cert.Sage.lin
  rw [Cert.RowBias.ofVec_apply, add_right_comm]
  rfl

/-- The output layer as the reference writes it — (A·Wl + bias) + H·Wr — is the dense entry (A·Wl + H·Wr) + bias. -/
theorem layer2 (A H : FVec Ideal S100000x256 .f32) (Wl Wr : FVec Ideal S256x64 .f32) (b : FVec Ideal S64 .f32)
    (h : Cert.KernelIdeal.S64.ShapeCasts Cert.KernelIdeal.S1x64) :
    addf (F := Ideal) (addf (Host.dotGeneral (F := Ideal) dot_S100000x256_S256x64_S100000x64_1_0_0_1_n_n none A Wl)
            (broadcastInDim S100000x64 ![0, 1] bcast_S1x64_S100000x64_0_1 (broadcastInDim S1x64 ![1] bcast_S64_S1x64_1 b)))
          (Host.dotGeneral (F := Ideal) dot_S100000x256_S256x64_S100000x64_1_0_0_1_n_n none H Wr)
      = Cert.Sage.outp A H Wl Wr (shapeCast Cert.KernelIdeal.S1x64 b h) := by
  funext i
  obtain ⟨p, q, rfl⟩ : ∃ (p : Fin 100000) (q : Fin 64), i = ix2 p q := ⟨i 0, i 1, eq_ix2 i⟩
  rw [addf_apply, addf_apply, dot2_plain]
  simp only [Host.dotGeneral]
  rw [Cert.PlainDot.dotGeneral_apply, Cert.PlainDot.dotGeneral_apply, Cert.RowBias.hostRows_apply]
  show _ = Cert.Sage.lin (R := 100000) (K := 256) (N := 64) A H Wl Wr _ p q
  unfold Cert.Sage.lin
  rw [Cert.RowBias.ofVec_apply, add_right_comm]

set_option maxRecDepth 8192 in
/-- The reference's result term is the network's result of its argument arrays. -/
theorem result_eq (m : (ℓ : Loc nD τ sig) → Buf (Elt Ideal) ℓ) (c : Dev nD) :
    Cert.ReferenceIdeal.Value.res_main_v56 (F := Ideal) m c
      = Cert.Sage.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v56
  rw [layer1 _ _ _ _ _ Cert.KernelIdeal.Gen.shapeCasts_S256_S1x256, layer2 _ _ _ _ _ Cert.KernelIdeal.Gen.shapeCasts_S64_S1x64]
  unfold Cert.Sage.out Cert.Sage.hid Cert.Sage.mean256 Cert.Sage.mean128 Cert.Sage.cnt Cert.Sage.srcCol Cert.Sage.dstCol Cert.Sage.srcRow
  rfl

end Cert.ReferenceIdeal.RefValue

end
-- ==== Proof.lean ====
/-
  The certificate of a two-layer mean-aggregating graph convolution whose dense layers run as two row-blocked kernels.

  Both programs aggregate identically on the host: the feature rows gathered at the edge sources, summed into the
  destination rows and divided by max(in-degree, 1). A dense layer sends row p of (aggregate A, features X) to
  A[p,·]·Wlᵀ + X[p,·]·Wrᵀ + b. The kernel computes each block of 2000 rows as (A·Wlᵀ + X·Wrᵀ) + b, the two products in
  a narrower float format (the identity on the extended reals), the hidden layer clamped below at zero; the reference adds
  (A·Wlᵀ + b) + X·Wrᵀ over the whole array. On the extended reals addition is commutative and associative, so the two agree
  entry by entry with no finiteness used; the aggregation chain is the same whole-array function on both sides and is
  never opened. The kernel's result is read off the run's boundaries (the 50 blocks of each call tile its result array);
  the reference's off its composed term.
-/
import proofs.«103036_j6373731468068_1_alg».proof.Defs
import proofs.«103036_j6373731468068_1_alg».proof.Proof.Gen.Kernel
import proofs.«103036_j6373731468068_1_alg».proof.Proof.Gen.Kernel.Frame
import proofs.«103036_j6373731468068_1_alg».proof.Proof.Gen.KernelIdeal
import proofs.«103036_j6373731468068_1_alg».proof.Proof.Gen.KernelIdeal.Frame
import proofs.«103036_j6373731468068_1_alg».proof.Proof.Gen.ReferenceIdeal
import proofs.«103036_j6373731468068_1_alg».proof.Proof.Gen.ReferenceIdeal.Run
import proofs.«103036_j6373731468068_1_alg».proof.Proof.Gen.Pre_finite_inputs
import proofs.«103036_j6373731468068_1_alg».proof.Proof.KernelRun
import proofs.«103036_j6373731468068_1_alg».proof.Proof.KernelValue
import proofs.«103036_j6373731468068_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program runs and leaves its arguments alone (word level). -/
theorem frame_k : Cert.frame_Kernel := fun m ρ _ => Cert.Kernel.Gen.frame m ρ

/-- The same on the extended reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network's result of those arguments. -/
theorem algebraic : Cert.algebraic_KernelIdeal_ReferenceIdeal := by
  intro m ρ m' ρ' _ hagree
  refine ⟨fun c => Cert.Sage.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Named.value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
